-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S8x4096x1024 .f32) (main_arg1 : IVec S8x4096 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_c_0 : IVec S_ 32 := constantI S_ 32 0#32
  let main_v4 : IVec S8x4096 32 := broadcastInDim S8x4096 ![] bcast_S_S8x4096 main_c_0
  let main_v5 : IVec S8x4096 1 := cmpi .sge main_arg1 main_v4
  let main_c_1 : IVec S_ 32 := constantI S_ 32 4096#32
  let main_v6 : IVec S8x4096 32 := broadcastInDim S8x4096 ![] bcast_S_S8x4096 main_c_1
  let main_v7 : IVec S8x4096 1 := cmpi .slt main_arg1 main_v6
  let main_v8 : IVec S8x4096 1 := andi main_v5 main_v7
  let main_c_2 : IVec S_ 1 := constantI S_ 1 1#1
  let main_v9 : IVec S_ 1 := (fun x v => Host.reduce IntOp.andi x v reducesTo_S8x4096_S_d0_1 h_S_) main_v8 main_c_2
  let main_v10 : IVec S_ 1 := andi main_v3 main_v9
  main_v10
-- ==== Kernel.lean ====
abbrev S8x4096x1024 : Shape := ⟨3, ![8, 4096, 1024]⟩
abbrev S8x4096 : Shape := ⟨2, ![8, 4096]⟩
abbrev S8x1x4096 : Shape := ⟨3, ![8, 1, 4096]⟩
abbrev S1x512x1024 : Shape := ⟨3, ![1, 512, 1024]⟩
abbrev S1x1x4096 : Shape := ⟨3, ![1, 1, 4096]⟩
abbrev S512x1 : Shape := ⟨2, ![512, 1]⟩
abbrev S1x1x512 : Shape := ⟨3, ![1, 1, 512]⟩
abbrev S512 : Shape := ⟨1, ![512]⟩
abbrev S1x512 : Shape := ⟨2, ![1, 512]⟩
abbrev S512x512 : Shape := ⟨2, ![512, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8x1x4096, .i32⟩
  | .hbm, ⟨3, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x4096, .i32⟩
  | .local _ .vmem, ⟨3, _⟩ => ⟨S1x1x4096, .i32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32_1 : BitVec 32 := 512#32
  let v7 : BitVec 32 := Scalar.muli arg2 c512_i32_1
  v7
def k0_off1 (i : grid0.Coords) : Fin 3 → Nat :=
  let c0 : Index := 0#32
  let c0_2 : Index := 0#32
  let arg2 : BitVec 32 := BitVec.ofNat 32 (i 2).val
  let c512_i32_1 : BitVec 32 := 512#32
  let v7 : BitVec 32 := Scalar.muli arg2 c512_i32_1
  let v8 : BitVec 32 := v7
  let v9 : Index := Scalar.indexCast v8
  ![0, 0, v9.toNat]
def k0_cond2 (i : grid0.Coords) : BitVec 1 :=
  let arg2 : BitVec 32 := BitVec.ofNat 32 (i 2).val
  let c7_i32 : BitVec 32 := 7#32
  let v29 : BitVec 1 := Scalar.cmpi .eq arg2 c7_i32
  let v30 : BitVec 32 := Scalar.extui v29
  let c0_i32_12 : BitVec 32 := 0#32
  let v31 : BitVec 1 := Scalar.cmpi .ne v30 c0_i32_12
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S8x4096_S8x1x4096 : S8x4096.ShapeCasts S8x1x4096
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  iota_S512x1_d0_w32 : S512x1.Iotas .tc 32 [0]
  h_S1x1x512 : 0 < S1x1x512.numel
  shapeCasts_S1x1x512_S512 : S1x1x512.ShapeCasts S512
  shapeCasts_S512_S1x512 : S512.ShapeCasts S1x512
  broadcasts_S512x1_S512x512 : S512x1.Broadcasts S512x512
  broadcasts_S1x512_S512x512 : S1x512.Broadcasts S512x512
  natLt_1_32 : 1 < 32
  bitsLt_bf16_f32 : FTy.bits .bf16 < FTy.bits .f32
  shapeCasts_S1x512x1024_S512x1024 : S1x512x1024.ShapeCasts S512x1024
  shapeCasts_S512x1024_S1x512x1024 : S512x1024.ShapeCasts S1x512x1024
  dot_S512x512_S512x1024_S512x1024_1_0_0_1_n_n_wf : DotDims.WF S512x512 S512x1024 S512x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x1x512.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S8x1x4096.size a
  hwx0_1 : ∀ i : grid0.Coords, EltTy.bits .i32 = 32 ∨ (Rect.block (s := S8x1x4096) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x4096x1024.size a
  hwx0_2 : ∀ i : grid0.Coords, EltTy.bits .f32 = 32 ∨ (Rect.block (s := S8x4096x1024) S1x512x1024.size (cc0_transform_2 i) (hinb0_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S8 : Shape := ⟨1, ![8]⟩
abbrev S8x1 : Shape := ⟨2, ![8, 1]⟩
abbrev S_ : Shape := ⟨0, ![]⟩
abbrev S32768x1024 : Shape := ⟨2, ![32768, 1024]⟩
abbrev S32768 : Shape := ⟨1, ![32768]⟩
abbrev S32768x1 : Shape := ⟨2, ![32768, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S8, .i32⟩
  | .hbm, ⟨3, _⟩ => ⟨S8x1, .i32⟩
  | .hbm, ⟨4, _⟩ => ⟨S_, .i32⟩
  | .hbm, ⟨5, _⟩ => ⟨S8x1, .i32⟩
  | .hbm, ⟨6, _⟩ => ⟨S8x1, .i32⟩
  | .hbm, ⟨7, _⟩ => ⟨S8x4096, .i32⟩
  | .hbm, ⟨8, _⟩ => ⟨S8x4096, .i32⟩
  | .hbm, ⟨9, _⟩ => ⟨S32768x1024, .f32⟩
  | .hbm, ⟨10, _⟩ => ⟨S32768, .i32⟩
  | .hbm, ⟨11, _⟩ => ⟨S_, .f32⟩
  | .hbm, ⟨12, _⟩ => ⟨S32768x1024, .f32⟩
  | .hbm, ⟨13, _⟩ => ⟨S32768x1, .i32⟩
  | .hbm, ⟨14, _⟩ => ⟨S32768x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  shapeCasts_S8x4096x1024_S32768x1024 : S8x4096x1024.ShapeCasts S32768x1024
  shapeCasts_S8x4096_S32768 : S8x4096.ShapeCasts S32768
  bcast_S_S32768x1024 : S_.BroadcastsInDim S32768x1024 (![] : Fin 0 → Fin S32768x1024.rank)
  bcast_S32768_S32768x1_0 : S32768.BroadcastsInDim S32768x1 (![0] : Fin 1 → Fin S32768x1.rank)
  shapeCasts_S32768x1024_S8x4096x1024 : S32768x1024.ShapeCasts S8x4096x1024
  scatter_S32768x1024_S32768x1_S32768x1024_1_0_0_1_wf : ScatterDims.WF S32768x1024 S32768x1 S32768x1024 [1] [0] [0] 1

variable [Facts₀]

def scatter_S32768x1024_S32768x1_S32768x1024_1_0_0_1 : ScatterDims S32768x1024 S32768x1 S32768x1024 where
  updateWindowDims := [1]
  insertedWindowDims := [0]
  scatterDimsToOperandDims := [0]
  indexVectorDim := 1
  wf := scatter_S32768x1024_S32768x1_S32768x1024_1_0_0_1_wf

class Facts : Prop extends Facts₀ where

variable [Facts]
-- ==== Proof.Pieces.lean ====
/-
  What one grid point of the pooling kernel leaves in its accumulator and in the output block, as values.

  At a grid point the body reads 512 words of the row's token table (the tile the innermost grid coordinate names),
  the tile's 512×1024 block of `x`, and the accumulator; it stores the accumulator plus the masked product of the
  two. At the first tile of a run the accumulator is first set to zero; at the last tile the updated accumulator is
  also copied to the output block. Each of the three control cases therefore leaves the same function of its loads:
  the arithmetic payload applied to the tile's words, the block of `x`, and the accumulator it found (zero at a
  run's first tile).
-/
import proofs.«420540_j43276090474610_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.TokenPool.Pieces

open Cert.KernelIdeal Cert.KernelIdeal.Gen

variable {F : FTy → Type} [FloatOps F]

theorem hz : (![0, 0, 0] : Fin 3 → Nat) = fun _ => 0 := funext fun a => by fin_cases a <;> rfl

/-- The 512 words of the staged table row that the body reads at grid point `i`: positions `512·i₂ … 512·i₂ + 511`. -/
abbrev words (i : grid0.Coords) (x1 : Vec F S1x1x4096 .i32) : Vec F S1x1x512 .i32 :=
  View.ld x1 (Rect.unit (s := S1x1x4096) (k0_off1 i) S1x1x512.size (k0_off1_inb i))

/-- A middle tile: the accumulator ends at the payload of the words, the block and the accumulator found. -/
theorem acc_B (c : Dev nD) (i : grid0.Coords) (arg3 : Memref sig .tc .vmem S1x512x1024 .f32) (harg3 : arg3.IsWhole) (arg4 : Memref sig .tc .vmem S1x1x4096 .i32) (harg4 : arg4.IsWhole) (arg5 : Memref sig .tc .vmem S1x512x1024 .f32) (harg5 : arg5.IsWhole) (arg6 : Memref sig .tc .vmem S1x512x1024 .f32) (harg6 : arg6.IsWhole) (hc0 : ¬cond0_0 i) (hc1 : ¬cond0_1 i)
    (x0 : Vec F S1x512x1024 .f32) (x1 : Vec F S1x1x4096 .i32) (xs0 : Vec F S1x512x1024 .f32) :
    sout0_B_0 c i arg3 harg3 arg4 harg4 arg5 harg5 arg6 harg6 hc0 hc1 x0 x1 xs0 = k0_pay2 i (words i x1) x0 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero hz]
  simp only [View.readAt_eq_ld, harg3.read_unread, harg4.read_unread, harg6.read_unread, View.ld_unit_zero (S := S1x512x1024) hz]
  rfl

/-- A run's first tile: the accumulator is set to zero and then updated. -/
theorem acc_A (c : Dev nD) (i : grid0.Coords) (arg3 : Memref sig .tc .vmem S1x512x1024 .f32) (harg3 : arg3.IsWhole) (arg4 : Memref sig .tc .vmem S1x1x4096 .i32) (harg4 : arg4.IsWhole) (arg5 : Memref sig .tc .vmem S1x512x1024 .f32) (harg5 : arg5.IsWhole) (arg6 : Memref sig .tc .vmem S1x512x1024 .f32) (harg6 : arg6.IsWhole) (hc0 : cond0_0 i) (hc1 : ¬cond0_1 i)
    (x0 : Vec F S1x512x1024 .f32) (x1 : Vec F S1x1x4096 .i32) :
    sout0_A_0 c i arg3 harg3 arg4 harg4 arg5 harg5 arg6 harg6 hc0 hc1 x0 x1 = k0_pay2 i (words i x1) x0 k0_pay1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1x512x1024) hz, View.readCov_unit_zero (S := S1x512x1024) _ hz]
  simp only [View.readAt_eq_ld, harg3.read_unread, harg4.read_unread, View.ld_unit_zero (S := S1x512x1024) hz]
  rfl

/-- A run's last tile: the accumulator is updated as at a middle tile, -/
theorem acc_C (c : Dev nD) (i : grid0.Coords) (arg3 : Memref sig .tc .vmem S1x512x1024 .f32) (harg3 : arg3.IsWhole) (arg4 : Memref sig .tc .vmem S1x1x4096 .i32) (harg4 : arg4.IsWhole) (arg5 : Memref sig .tc .vmem S1x512x1024 .f32) (harg5 : arg5.IsWhole) (arg6 : Memref sig .tc .vmem S1x512x1024 .f32) (harg6 : arg6.IsWhole) (hc0 : ¬cond0_0 i) (hc1 : cond0_1 i)
    (x0 : Vec F S1x512x1024 .f32) (x1 : Vec F S1x1x4096 .i32) (xs0 : Vec F S1x512x1024 .f32) :
    sout0_C_0 c i arg3 harg3 arg4 harg4 arg5 harg5 arg6 harg6 hc0 hc1 x0 x1 xs0 = k0_pay2 i (words i x1) x0 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero hz]
  simp only [View.readAt_eq_ld, harg3.read_unread, harg4.read_unread, harg6.read_unread, View.ld_unit_zero (S := S1x512x1024) hz]
  rfl

/-- and the output block receives the updated accumulator. -/
theorem out_C (c : Dev nD) (i : grid0.Coords) (arg3 : Memref sig .tc .vmem S1x512x1024 .f32) (harg3 : arg3.IsWhole) (arg4 : Memref sig .tc .vmem S1x1x4096 .i32) (harg4 : arg4.IsWhole) (arg5 : Memref sig .tc .vmem S1x512x1024 .f32) (harg5 : arg5.IsWhole) (arg6 : Memref sig .tc .vmem S1x512x1024 .f32) (harg6 : arg6.IsWhole) (hc0 : ¬cond0_0 i) (hc1 : cond0_1 i)
    (x0 : Vec F S1x512x1024 .f32) (x1 : Vec F S1x1x4096 .i32) (xs0 : Vec F S1x512x1024 .f32) :
    out0_C_2 c i arg3 harg3 arg4 harg4 arg5 harg5 arg6 harg6 hc0 hc1 x0 x1 xs0 = k0_pay2 i (words i x1) x0 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero hz, View.readCov_unit_zero (S := S1x512x1024) _ hz]
  simp only [View.readAt_eq_ld, harg3.read_unread, harg4.read_unread, harg6.read_unread, View.ld_unit_zero (S := S1x512x1024) hz]
  rfl

end Cert.TokenPool.Pieces

end
-- ==== Proof.Spec.lean ====
/-
  The pooled array, as one function of the two argument arrays.

  For a batch row `b`, a token index `t` and a hidden coordinate `h`, the pooled value is the sum of `x[b, w, h]` over
  the wordpiece positions `w` of that row whose word is `t`:

      pooled x ids (b, t, h) = ∑ w, if ids[b, w] = t then x[b, w, h] else 0.

  The sum is taken in the extended reals, where addition is commutative and associative, so neither the order in which
  the positions are visited nor their grouping into tiles matters.
-/
import Idealize.ShloMosaic.PureOps.Ideal
import Idealize.ShloMosaic.Lib.ValueIdx

noncomputable section

namespace Cert.TokenPool

open Idealize.ShloMosaic Idealize.ShloMosaic.ValueIdx

/-- The pooled value at the coordinates `(b, t, h)`. -/
def pooledAt (x : FVec Ideal ⟨3, ![8, 4096, 1024]⟩ .f32) (ids : IVec ⟨2, ![8, 4096]⟩ 32)
    (b : Fin 8) (t : Fin 4096) (h : Fin 1024) : EReal :=
  ∑ w : Fin 4096, if ids (ix2 b w) = BitVec.ofNat 32 t.val then x (ix3 b w h) else 0

/-- The pooled array. -/
def pooled (x : FVec Ideal ⟨3, ![8, 4096, 1024]⟩ .f32) (ids : IVec ⟨2, ![8, 4096]⟩ 32) :
    FVec Ideal ⟨3, ![8, 4096, 1024]⟩ .f32 :=
  fun i => pooledAt x ids (i 0) (i 1) (i 2)

theorem pooled_apply (x : FVec Ideal ⟨3, ![8, 4096, 1024]⟩ .f32) (ids : IVec ⟨2, ![8, 4096]⟩ 32)
    (b : Fin 8) (t : Fin 4096) (h : Fin 1024) : pooled x ids (ix3 b t h) = pooledAt x ids b t h := rfl

/-- Every word of the table is a token index of its own row. -/
def InRange (ids : IVec ⟨2, ![8, 4096]⟩ 32) : Prop :=
  ∀ (b : Fin 8) (w : Fin 4096), (ids (ix2 b w)).toNat < 4096

end Cert.TokenPool

end
-- ==== Proof.Tiles.lean ====
/-
  The pooled sum cut into tiles of 512 wordpiece positions.

  Reading the two argument arrays at a natural-number position (zero beyond the axis), the contribution of tile `l`
  (positions `512 l … 512 l + 511`) to the pooled value of token word `tok` in row `b` at hidden coordinate `h` is

      tile x ids b tok h l = ∑ j < 512, if tok = ids[b, 512 l + j] then x[b, 512 l + j, h] else 0,

  and the pooled value is the sum of the eight tiles.
-/
import proofs.«420540_j43276090474610_2_alg».proof.Proof.Spec

noncomputable section

namespace Cert.TokenPool

open Idealize.ShloMosaic Idealize.ShloMosaic.ValueIdx

/-- `x[b, k, h]` at a natural-number position `k`, zero beyond the axis. -/
def xAt (x : FVec Ideal ⟨3, ![8, 4096, 1024]⟩ .f32) (b : Fin 8) (h : Fin 1024) (k : ℕ) : EReal :=
  if hk : k < 4096 then x (ix3 b ⟨k, hk⟩ h) else 0

/-- `ids[b, k]` at a natural-number position `k`, the zero word beyond the axis. -/
def idAt (ids : IVec ⟨2, ![8, 4096]⟩ 32) (b : Fin 8) (k : ℕ) : BitVec 32 :=
  if hk : k < 4096 then ids (ix2 b ⟨k, hk⟩) else 0#32

/-- Tile `l`'s contribution to the pooled value of the token word `tok`. -/
def tile (x : FVec Ideal ⟨3, ![8, 4096, 1024]⟩ .f32) (ids : IVec ⟨2, ![8, 4096]⟩ 32)
    (b : Fin 8) (tok : BitVec 32) (h : Fin 1024) (l : ℕ) : EReal :=
  ∑ j : Fin 512, if tok = idAt ids b (l * 512 + j.val) then xAt x b h (l * 512 + j.val) else 0

end Cert.TokenPool

end
-- ==== Proof.Blocks.lean ====
/-
  The input blocks of a grid point, read at an index.

  The 512 grid points are the triples (b, T, l) — batch row, output tile, wordpiece tile — with linear position
  `64 b + 8 T + l`. At such a point the block of `x` is rows `512 l … 512 l + 511` of batch row `b`; the staged table
  row is row `b` of the token table (a [8, 4096] array viewed as [8, 1, 4096]), of which the body reads the words at
  positions `512 l … 512 l + 511`.
-/
import proofs.«420540_j43276090474610_2_alg».proof.Proof.Pieces
import proofs.«420540_j43276090474610_2_alg».proof.Proof.Tiles
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.TokenPool.Blocks

open Cert.KernelIdeal Cert.KernelIdeal.Gen Cert.TokenPool.Pieces

variable {F : FTy → Type} [FloatOps F]
variable (m : (ℓ : Loc nD τ sig) → Buf (Elt F) ℓ)

/-- The block of `x` at point `t`, at its literal type. -/
abbrev xblk (c : Dev nD) (t : Fin cfg0.N) : Vec F S1x512x1024 .f32 := iblk m c 0 t
/-- The staged table row at point `t`, at its literal type. -/
abbrev wblk (c : Dev nD) (t : Fin cfg0.N) : Vec F S1x1x4096 .i32 := iblk m c 1 t

/-- The block indices of the three windows and the grid coordinates, from the linear position. -/
theorem idx_facts : ∀ t : Fin cfg0.N,
    win0_0.index t 0 = t.val / 64 ∧ win0_0.index t 1 = t.val % 8 ∧ win0_0.index t 2 = 0
    ∧ win0_1.index t 0 = t.val / 64 ∧ win0_1.index t 1 = 0 ∧ win0_1.index t 2 = 0
    ∧ win0_2.index t 0 = t.val / 64 ∧ win0_2.index t 1 = t.val / 8 % 8 ∧ win0_2.index t 2 = 0
    ∧ ((grid0.coords t) 1).val = t.val / 8 % 8 ∧ ((grid0.coords t) 2).val = t.val % 8 :=
  (by decide +kernel : ∀ t : Fin grid0.N, _)

/-- Row `j` of the block of `x` at point `t` is row `512 (t mod 8) + j` of batch row `t / 64`. -/
theorem xblk_apply (c : Dev nD) (t : Fin cfg0.N) (j : Fin 512) (h : Fin 1024)
    (hb : t.val / 64 < 8) (hk : t.val % 8 * 512 + j.val < 4096) :
    xblk m c t (ix3 (0 : Fin 1) j h)
      = m ((c : Thread nD τ).loc main_arg0) (ix3 (⟨t.val / 64, hb⟩ : Fin 8) (⟨t.val % 8 * 512 + j.val, hk⟩ : Fin 4096) h) := by
  obtain ⟨h0, h1, h2, -⟩ := idx_facts t
  unfold xblk iblk
  rw [View.read_apply]
  show V m c main_arg0 _ = _
  rw [V_main_arg0]
  congr 1
  funext a
  apply Fin.ext
  match a with
  | ⟨0, _⟩ => show win0_0.index t 0 * 1 + 1 * 0 = t.val / 64; rw [h0]; omega
  | ⟨1, _⟩ => show win0_0.index t 1 * 512 + 1 * j.val = t.val % 8 * 512 + j.val; rw [h1]; omega
  | ⟨2, _⟩ => show win0_0.index t 2 * 1024 + 1 * h.val = h.val; rw [h2]; omega

/-- The staged table at the region's entry is the token table viewed as [8, 1, 4096]. -/
theorem table_eq (c : Dev nD) :
    (V m c main_v0 : S8x1x4096.Idx → Elt F .i32)
      = shapeCast S8x1x4096 (m ((c : Thread nD τ).loc main_arg1)) shapeCasts_S8x4096_S8x1x4096 := by
  dsimp only [Gen.V, Gen.hostOps0]; after_results; rfl

/-- Word `k` of the 512 the body reads at point `t` is word `512 (t mod 8) + k` of row `t / 64` of the token table. -/
theorem words_apply (c : Dev nD) (t : Fin cfg0.N) (k : Fin 512)
    (hb : t.val / 64 < 8) (hk : t.val % 8 * 512 + k.val < 4096) :
    words (grid0.coords t) (wblk m c t) (ix3 (0 : Fin 1) (0 : Fin 1) k)
      = m ((c : Thread nD τ).loc main_arg1) (ix2 (⟨t.val / 64, hb⟩ : Fin 8) (⟨t.val % 8 * 512 + k.val, hk⟩ : Fin 4096)) := by
  obtain ⟨-, -, -, h0, h1, h2, -, -, -, -, hl⟩ := idx_facts t
  have hoff : k0_off1 (grid0.coords t) = ![0, 0, 512 * ((grid0.coords t) 2).val] := k0_off1_eq _
  unfold words wblk iblk
  show (((cfg0.win 1).blk t).view.read (Elt F) (V m c (Pipeline.arrRef spec0 1))) _ = _
  rw [View.read_apply]
  show V m c main_v0 _ = _
  rw [table_eq]
  refine shapeCast_apply _ shapeCasts_S8x4096_S8x1x4096 _ _ ?_
  rewrite [Shape.rowMajor_val_two, Shape.rowMajor_val_three]
  show (t.val / 64) * 4096 + (t.val % 8 * 512 + k.val)
    = ((win0_1.index t 0 * 1 + 1 * (k0_off1 (grid0.coords t) 0 + 1 * 0)) * 1
        + (win0_1.index t 1 * 1 + 1 * (k0_off1 (grid0.coords t) 1 + 1 * 0))) * 4096
      + (win0_1.index t 2 * 4096 + 1 * (k0_off1 (grid0.coords t) 2 + 1 * k.val))
  rw [h0, h1, h2, hoff]
  show _ = ((t.val / 64 * 1 + 1 * (0 + 1 * 0)) * 1 + (0 * 1 + 1 * (0 + 1 * 0))) * 4096
      + (0 * 4096 + 1 * (512 * ((grid0.coords t) 2).val + 1 * k.val))
  rw [hl]; omega

end Cert.TokenPool.Blocks

end
-- ==== Proof.TilesSum.lean ====
/-
  The pooled value is the sum of its eight tiles.

  The 4096 wordpiece positions of a row are the numbers `l * 512 + j` with `l < 8` and `j < 512`, each exactly once.
  Below the end of the axis the two natural-number readers return the arrays' own entries, so the summand of the pooled
  value at position `w` is the summand of a tile at the number `w`; a sum over the first `n * m` numbers is the sum
  over `l < n` of the sums over `j < m` at `l * m + j`, because the extended reals are a commutative additive monoid.
-/
import proofs.«420540_j43276090474610_2_alg».proof.Proof.Tiles
import Mathlib.Algebra.BigOperators.Fin
import Mathlib.Algebra.BigOperators.Group.Finset.Basic
import Mathlib.Data.Fintype.BigOperators

noncomputable section

namespace Cert.TokenPool

open Idealize.ShloMosaic Idealize.ShloMosaic.ValueIdx

/-- A sum over the first `n * m` numbers, cut into `n` consecutive blocks of `m` numbers. -/
theorem sum_range_mul_blocks {M : Type*} [AddCommMonoid M] (g : ℕ → M) (m : ℕ) :
    ∀ n : ℕ, ∑ k ∈ Finset.range (n * m), g k
      = ∑ l ∈ Finset.range n, ∑ j ∈ Finset.range m, g (l * m + j) := by
  intro n
  induction n with
  | zero => simp
  | succ n ih =>
    rw [Nat.succ_mul, Finset.sum_range_add, Finset.sum_range_succ, ih]

/-- The summand of a tile, as a function of the natural-number position. -/
def tileTerm (x : FVec Ideal ⟨3, ![8, 4096, 1024]⟩ .f32) (ids : IVec ⟨2, ![8, 4096]⟩ 32)
    (b : Fin 8) (tok : BitVec 32) (h : Fin 1024) (k : ℕ) : EReal :=
  if tok = idAt ids b k then xAt x b h k else 0

/-- At a position of the axis the tile's summand is the pooled value's summand. -/
theorem tileTerm_val (x : FVec Ideal ⟨3, ![8, 4096, 1024]⟩ .f32) (ids : IVec ⟨2, ![8, 4096]⟩ 32)
    (b : Fin 8) (tok : BitVec 32) (h : Fin 1024) (w : Fin 4096) :
    tileTerm x ids b tok h w.val = if ids (ix2 b w) = tok then x (ix3 b w h) else 0 := by
  unfold tileTerm idAt xAt
  rw [dif_pos w.isLt, dif_pos w.isLt]
  by_cases hw : ids (ix2 b w) = tok
  · rw [if_pos hw, if_pos hw.symm]
  · rw [if_neg hw, if_neg (fun e => hw e.symm)]

/-- A tile is the sum of its summand over the 512 positions it covers. -/
theorem tile_eq_sum_range (x : FVec Ideal ⟨3, ![8, 4096, 1024]⟩ .f32) (ids : IVec ⟨2, ![8, 4096]⟩ 32)
    (b : Fin 8) (tok : BitVec 32) (h : Fin 1024) (l : ℕ) :
    tile x ids b tok h l = ∑ j ∈ Finset.range 512, tileTerm x ids b tok h (l * 512 + j) := by
  rw [Finset.sum_range]
  rfl

theorem pooledAt_eq_tiles (x : FVec Ideal ⟨3, ![8, 4096, 1024]⟩ .f32) (ids : IVec ⟨2, ![8, 4096]⟩ 32)
    (b : Fin 8) (t : Fin 4096) (h : Fin 1024) :
    pooledAt x ids b t h = ∑ l ∈ Finset.range 8, tile x ids b (BitVec.ofNat 32 t.val) h l := by
  have h1 : pooledAt x ids b t h
      = ∑ w : Fin 4096, tileTerm x ids b (BitVec.ofNat 32 t.val) h w.val := by
    unfold pooledAt
    exact Finset.sum_congr rfl (fun w _ => (tileTerm_val x ids b (BitVec.ofNat 32 t.val) h w).symm)
  have h2 : ∑ k ∈ Finset.range 4096, tileTerm x ids b (BitVec.ofNat 32 t.val) h k
      = ∑ l ∈ Finset.range 8, ∑ j ∈ Finset.range 512,
          tileTerm x ids b (BitVec.ofNat 32 t.val) h (l * 512 + j) :=
    sum_range_mul_blocks (fun k => tileTerm x ids b (BitVec.ofNat 32 t.val) h k) 512 8
  rw [h1, ← Finset.sum_range (fun k => tileTerm x ids b (BitVec.ofNat 32 t.val) h k), h2]
  exact Finset.sum_congr rfl (fun l _ => (tile_eq_sum_range x ids b (BitVec.ofNat 32 t.val) h l).symm)

end Cert.TokenPool

end
-- ==== Proof.PayloadAt.lean ====
/-
  The kernel body's two stored values, read at an index at the exact (extended-real) instance.

  The accumulating value is a one-hot product: row `r` of the left factor is the indicator, over the block's 512
  positions `k`, of "the position's index word equals this row's token `(i 1) * 512 + r`", and the right factor is the
  loaded block of embedding rows. At the exact instance the two format changes are the identity and the product into
  the zero accumulator is the plain sum over `k`, so the entry at `(r, h)` is the accumulator's entry plus the sum of
  the embedding entries `(k, h)` over the positions `k` whose index word is the row's token. The initial value is zero.
-/
import proofs.«420540_j43276090474610_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Predicate

noncomputable section

open scoped BigOperators

namespace Cert.TokenPool.Payload

open Idealize.ShloMosaic Idealize.SL.Sem Idealize.ShloMosaic.ValueIdx
open Cert.KernelIdeal Cert.KernelIdeal.Gen

/-! ## The contraction's operand indices, axis by axis -/

/-- The left operand's row is the output's row. -/
theorem lhs_axis0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl

/-- The left operand's column is the contraction position. -/
theorem lhs_axis1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q

/-- The right operand's row is the contraction position. -/
theorem rhs_axis0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q

/-- The right operand's column is the output's column. -/
theorem rhs_axis1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product into the zero accumulator, read at row `r` and column `h`: the sum over the contraction position of
    the left operand's row entry times the right operand's column entry. -/
theorem matmul_entry (A : FVec Ideal S512x512 .bf16) (B : FVec Ideal S512x1024 .bf16) (r : Fin 512) (h : Fin 1024) :
    matmul dot_S512x512_S512x1024_S512x1024_1_0_0_1_n_n none A B (constant (F := Ideal) S512x1024 .f32 0x00000000#32) (ix2 r h)
      = ∑ k : Fin 512, A (ix2 r k) * B (ix2 k h) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r h) ((contrEquiv1 dot_S512x512_S512x1024_S512x1024_1_0_0_1_n_n 512 rfl rfl).symm k) = ix2 r k := funext fun a => Fin.ext (by
    match a with
    | ⟨0, _⟩ => exact lhs_axis0 _ _
    | ⟨1, _⟩ => exact (lhs_axis1 _ _).trans hk)
  have er : dot_S512x512_S512x1024_S512x1024_1_0_0_1_n_n.rhsIdx (ix2 r h) ((contrEquiv1 dot_S512x512_S512x1024_S512x1024_1_0_0_1_n_n 512 rfl rfl).symm k) = ix2 k h := funext fun a => Fin.ext (by
    match a with
    | ⟨0, _⟩ => exact (rhs_axis0 _ _).trans hk
    | ⟨1, _⟩ => exact rhs_axis1 _ _)
  rw [el, er]

/-! ## Layout operations the payload meets, read at an index by coordinates -/

section Layout
variable {α : Type}

/-- A `[1, 1, a]` array cast to `[a]` reads, at `k`, the operand at `(0, 0, k)`. -/
theorem shapeCast_11a_a_apply {a : ℕ} (x : (⟨3, ![1, 1, a]⟩ : Shape).Idx → α)
    (h : (⟨3, ![1, 1, a]⟩ : Shape).ShapeCasts ⟨1, ![a]⟩) (k : Fin a) :
    shapeCast ⟨1, ![a]⟩ x h (ix1 k) = x (ix3 (0 : Fin 1) (0 : Fin 1) k) :=
  shapeCast_apply x h _ _ (by
    rw [Shape.rowMajor_val_three, Shape.rowMajor_val_one]
    show (0 * 1 + 0) * a + k.val = k.val
    simp)

/-- An `[a, 1]` column broadcast to `[a, b]` reads, at `(p, c)`, the column's entry at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The token word and the mask entry -/

/-- The row's token: the block's first token `a * 512` plus the row, as words; no wrap is involved because a word's
    sum and product are the naturals' modulo `2 ^ 32`. -/
theorem token_word (a r : ℕ) :
    IntOp.addi (Scalar.muli (BitVec.ofNat 32 a) 512#32) (BitVec.ofNat 32 r) = BitVec.ofNat 32 (a * 512 + r) := by
  show BitVec.ofNat 32 a * BitVec.ofNat 32 512 + BitVec.ofNat 32 r = BitVec.ofNat 32 (a * 512 + r)
  rw [BitVec.ofNat_add, BitVec.ofNat_mul]

/-- The comparison bit widened to a word and converted to a float is the indicator of equality. -/
theorem mask_word (x y : BitVec 32) :
    FloatOps.sitofp (F := Ideal) .f32 ((IntOp.cmpi .eq x y).setWidth 32) = if x = y then (1 : EReal) else 0 := by
  by_cases hxy : x = y
  · rw [if_pos hxy, StableHlo.Predicate.cmpi_eq_iff.mpr hxy]
    show ((((1#1 : BitVec 1).setWidth 32).toInt : ℝ) : EReal) = 1
    have : ((1#1 : BitVec 1).setWidth 32).toInt = 1 := by decide
    rw [this]; simp
  · have h0 : IntOp.cmpi .eq x y = 0#1 := eq_zero_of_ne_one (fun hc => hxy (StableHlo.Predicate.cmpi_eq_iff.mp hc))
    rw [if_neg hxy, h0]
    show ((((0#1 : BitVec 1).setWidth 32).toInt : ℝ) : EReal) = 0
    have : ((0#1 : BitVec 1).setWidth 32).toInt = 0 := by decide
    rw [this]; simp

/-! ## The payloads at an index -/

/-- The accumulating payload at row `r`, column `h`: the accumulator's entry plus the sum, over the block's
    positions `k`, of the embedding row's entry where the position's index word is this row's token. -/
theorem pay2_apply (i : grid0.Coords) (v10 : Vec Ideal S1x1x512 .i32) (v19 v23 : Vec Ideal S1x512x1024 .f32)
    (r : Fin 512) (h : Fin 1024) :
    k0_pay2 (F := Ideal) i v10 v19 v23 (ix3 (0 : Fin 1) r h)
      = v23 (ix3 (0 : Fin 1) r h)
        + ∑ k : Fin 512, (if BitVec.ofNat 32 ((i 1).val * 512 + r.val) = v10 (ix3 (0 : Fin 1) (0 : Fin 1) k)
                            then v19 (ix3 (0 : Fin 1) k h) else 0) := by
  unfold k0_pay2
  rw [shapeCast_self, addf_apply, shapeCast_ab_1ab_apply, matmul_entry]
  refine congrArg (v23 (ix3 (0 : Fin 1) r h) + ·) (Finset.sum_congr rfl fun k _ => ?_)
  rw [truncf_apply, truncf_apply, sitofp_apply, extui_apply, shapeCast_1ab_ab_apply]
  show FloatOps.sitofp (F := Ideal) .f32 ((IntOp.cmpi .eq (broadcastTo S512x512 _ _ (ix2 r k)) (broadcastTo S512x512 _ _ (ix2 r k))).setWidth 32) * _ = _
  rw [broadcastTo_a1_ab_apply, broadcastTo_1b_ab_apply, shapeCast_a_1a_apply, shapeCast_11a_a_apply, mask_word]
  have hw : addi (broadcast S512x1 (Scalar.muli (BitVec.ofNat 32 (i 1).val) 512#32)) (iota Kind.tc S512x1 32 [0] iota_S512x1_d0_w32)
      (ix2 r (0 : Fin 1)) = BitVec.ofNat 32 ((i 1).val * 512 + r.val) := by
    show IntOp.addi (Scalar.muli (BitVec.ofNat 32 (i 1).val) 512#32) (iota Kind.tc S512x1 32 [0] iota_S512x1_d0_w32 (ix2 r (0 : Fin 1))) = _
    rw [iota_single_apply]
    exact token_word _ _
  rw [hw, ite_mul, one_mul, zero_mul]

/-- The initial payload is zero everywhere. -/
theorem pay1_apply (y : S1x512x1024.Idx) : k0_pay1 (F := Ideal) y = 0 := by
  unfold k0_pay1
  rw [shapeCast_self, broadcast_apply]
  exact Ideal.ofBits_zero_f32

end Cert.TokenPool.Payload

end
-- ==== Proof.Invariant.lean ====
/-
  The accumulator of the pooling kernel after each grid point, and the block a run's last point writes back.

  Write a point's linear position as `n = 64 b + 8 T + l`. Within the run of the eight points that share `(b, T)` the
  accumulator is zeroed at `l = 0` and each point adds its tile, so after point `n` row `r` of the accumulator holds the
  sum of the tiles `0 … l` of the pooled value of token `512 T + r` in batch row `b`. At `l = 7` all eight tiles are in,
  and the block written back is the pooled array's block `(b, T)`.
-/
import proofs.«420540_j43276090474610_2_alg».proof.Proof.Blocks
import proofs.«420540_j43276090474610_2_alg».proof.Proof.TilesSum
import proofs.«420540_j43276090474610_2_alg».proof.Proof.Gen.KernelIdeal.Value
import proofs.«420540_j43276090474610_2_alg».proof.Proof.PayloadAt

noncomputable section

open Idealize.ShloMosaic Idealize.ShloMosaic.TcCoe Idealize.SL.Sem Idealize.ShloMosaic.ValueIdx
open Idealize.ShloMosaic.Pipeline (Dat)

namespace Cert.TokenPool.Invariant

open Cert.KernelIdeal Cert.KernelIdeal.Gen Cert.TokenPool Cert.TokenPool.Pieces Cert.TokenPool.Blocks
open Cert.TokenPool.Payload

variable (m : (ℓ : Loc nD τ sig) → Buf (Elt Ideal) ℓ)

/-- The two argument arrays as launched, at their literal types. -/
abbrev xArr (c : Dev nD) : FVec Ideal ⟨3, ![8, 4096, 1024]⟩ .f32 := m ((c : Thread nD τ).loc main_arg0)
abbrev idArr (c : Dev nD) : IVec ⟨2, ![8, 4096]⟩ 32 := m ((c : Thread nD τ).loc main_arg1)

/-- One point's update, read at an entry: the accumulator found plus the point's tile. -/
theorem step_apply (c : Dev nD) (t : Fin cfg0.N) (acc : Vec Ideal S1x512x1024 .f32) (r : Fin 512) (h : Fin 1024)
    (b : Fin 8) (hb : b.val = t.val / 64) :
    k0_pay2 (F := Ideal) (grid0.coords t) (words (grid0.coords t) (wblk m c t)) (xblk m c t) acc (ix3 (0 : Fin 1) r h)
      = acc (ix3 (0 : Fin 1) r h)
        + tile (xArr m c) (idArr m c) b (BitVec.ofNat 32 (t.val / 8 % 8 * 512 + r.val)) h (t.val % 8) := by
  have hN : t.val < 512 := lt_of_lt_of_eq t.isLt (show cfg0.N = 512 from N_0)
  have hb' : t.val / 64 < 8 := by omega
  obtain rfl : b = ⟨t.val / 64, hb'⟩ := Fin.ext hb
  obtain ⟨-, -, -, -, -, -, -, -, -, hT, -⟩ := idx_facts t
  rw [pay2_apply, hT]
  congr 1
  unfold tile
  refine Finset.sum_congr rfl fun k _ => ?_
  have hk : t.val % 8 * 512 + k.val < 4096 := by have := k.isLt; omega
  rw [words_apply m c t k hb' hk, xblk_apply m c t k h hb' hk]
  unfold idAt xAt
  rw [dif_pos hk, dif_pos hk]

/-- A run's first point (`l = 0`): the accumulator holds tile 0. -/
theorem acc_first (c : Dev nD) (t : Fin cfg0.N) (h0 : t.val % 8 = 0) (b : Fin 8) (r : Fin 512) (h : Fin 1024)
    (hb : b.val = t.val / 64) :
    (outsAt0 m c t.val t.isLt).2 (ix3 (0 : Fin 1) r h)
      = ∑ l ∈ Finset.range (t.val % 8 + 1),
          tile (xArr m c) (idArr m c) b (BitVec.ofNat 32 (t.val / 8 % 8 * 512 + r.val)) h l := by
  have h1 : ¬t.val % 8 = 7 := by omega
  rw [outsAt0_A m c t h0 h1]
  dsimp only
  refine (congrFun (acc_A (F := Ideal) c (grid0.coords t) (ms0_0 t) (hs0_0 t) (ms0_1 t) (hs0_1 t) (ms0_2 t) (hs0_2 t)
    scM0_0 (Memref.isWhole_whole _) ((hcond0_0 t).mpr h0) (fun hc => h1 ((hcond0_1 t).mp hc))
    (iblk m c 0 t) (iblk m c 1 t)) (ix3 (0 : Fin 1) r h)).trans ?_
  refine (step_apply m c t (k0_pay1 (F := Ideal)) r h b hb).trans ?_
  rw [pay1_apply, zero_add, h0]
  exact (Finset.sum_range_one _).symm

/-- A later point of a run (`l > 0`): the accumulator gains tile `l` over what the point before left. -/
theorem acc_next (c : Dev nD) (t : Fin cfg0.N) (h0 : ¬t.val % 8 = 0) (b : Fin 8) (r : Fin 512) (h : Fin 1024)
    (hb : b.val = t.val / 64)
    (ih : (outsAt0 m c (t.val - 1) (Nat.lt_of_le_of_lt (Nat.sub_le _ _) t.isLt)).2 (ix3 (0 : Fin 1) r h)
      = ∑ l ∈ Finset.range ((t.val - 1) % 8 + 1),
          tile (xArr m c) (idArr m c) b (BitVec.ofNat 32 ((t.val - 1) / 8 % 8 * 512 + r.val)) h l) :
    (outsAt0 m c t.val t.isLt).2 (ix3 (0 : Fin 1) r h)
      = ∑ l ∈ Finset.range (t.val % 8 + 1),
          tile (xArr m c) (idArr m c) b (BitVec.ofNat 32 (t.val / 8 % 8 * 512 + r.val)) h l := by
  have e1 : (t.val - 1) % 8 + 1 = t.val % 8 := by omega
  have e2 : (t.val - 1) / 8 % 8 = t.val / 8 % 8 := by omega
  rw [e1, e2] at ih
  by_cases h1 : t.val % 8 = 7
  · rw [outsAt0_C m c t h0 h1]
    dsimp only
    refine (congrFun (acc_C (F := Ideal) c (grid0.coords t) (ms0_0 t) (hs0_0 t) (ms0_1 t) (hs0_1 t) (ms0_2 t) (hs0_2 t)
      scM0_0 (Memref.isWhole_whole _) (fun hc => h0 ((hcond0_0 t).mp hc)) ((hcond0_1 t).mpr h1)
      (iblk m c 0 t) (iblk m c 1 t) (outsAt0 m c (t.val - 1) (Nat.lt_of_le_of_lt (Nat.sub_le _ _) t.isLt)).2)
      (ix3 (0 : Fin 1) r h)).trans ?_
    refine (step_apply m c t _ r h b hb).trans ?_
    rw [ih]
    exact (Finset.sum_range_succ _ _).symm
  · rw [outsAt0_B m c t h0 h1]
    dsimp only
    refine (congrFun (acc_B (F := Ideal) c (grid0.coords t) (ms0_0 t) (hs0_0 t) (ms0_1 t) (hs0_1 t) (ms0_2 t) (hs0_2 t)
      scM0_0 (Memref.isWhole_whole _) (fun hc => h0 ((hcond0_0 t).mp hc)) (fun hc => h1 ((hcond0_1 t).mp hc))
      (iblk m c 0 t) (iblk m c 1 t) (outsAt0 m c (t.val - 1) (Nat.lt_of_le_of_lt (Nat.sub_le _ _) t.isLt)).2)
      (ix3 (0 : Fin 1) r h)).trans ?_
    refine (step_apply m c t _ r h b hb).trans ?_
    rw [ih]
    exact (Finset.sum_range_succ _ _).symm

/-- After point `n = 64 b + 8 T + l`, row `r` of the accumulator holds the tiles `0 … l` of token `512 T + r`. -/
theorem acc_eq (c : Dev nD) : ∀ (n : ℕ) (hn : n < cfg0.N) (b : Fin 8) (r : Fin 512) (h : Fin 1024), b.val = n / 64 →
    (outsAt0 m c n hn).2 (ix3 (0 : Fin 1) r h)
      = ∑ l ∈ Finset.range (n % 8 + 1),
          tile (xArr m c) (idArr m c) b (BitVec.ofNat 32 (n / 8 % 8 * 512 + r.val)) h l
  | 0, hn, b, r, h, hb => acc_first m c ⟨0, hn⟩ rfl b r h hb
  | k + 1, hn, b, r, h, hb => by
    by_cases h0 : (k + 1) % 8 = 0
    · exact acc_first m c ⟨k + 1, hn⟩ h0 b r h hb
    · exact acc_next m c ⟨k + 1, hn⟩ h0 b r h hb
        (acc_eq c k (Nat.lt_of_succ_lt hn) b r h (by omega))

/-- A run's last point (`l = 7`) leaves, in row `r` of the output block, the pooled value of token `512 T + r`. -/
theorem out_last (c : Dev nD) (t : Fin cfg0.N) (h7 : t.val % 8 = 7) (b : Fin 8) (r : Fin 512) (h : Fin 1024)
    (hb : b.val = t.val / 64) (tk : Fin 4096) (htk : tk.val = t.val / 8 % 8 * 512 + r.val) :
    (outsAt0 m c t.val t.isLt).1 (ix3 (0 : Fin 1) r h) = pooledAt (xArr m c) (idArr m c) b tk h := by
  have h0 : ¬t.val % 8 = 0 := by omega
  have ih := acc_eq m c (t.val - 1) (Nat.lt_of_le_of_lt (Nat.sub_le _ _) t.isLt) b r h (by omega)
  have e1 : (t.val - 1) % 8 + 1 = 7 := by omega
  have e2 : (t.val - 1) / 8 % 8 = t.val / 8 % 8 := by omega
  rw [e1, e2] at ih
  rw [outsAt0_C m c t h0 h7]
  dsimp only
  refine (congrFun (out_C (F := Ideal) c (grid0.coords t) (ms0_0 t) (hs0_0 t) (ms0_1 t) (hs0_1 t) (ms0_2 t) (hs0_2 t)
    scM0_0 (Memref.isWhole_whole _) (fun hc => h0 ((hcond0_0 t).mp hc)) ((hcond0_1 t).mpr h7)
    (iblk m c 0 t) (iblk m c 1 t) (outsAt0 m c (t.val - 1) (Nat.lt_of_le_of_lt (Nat.sub_le _ _) t.isLt)).2)
    (ix3 (0 : Fin 1) r h)).trans ?_
  refine (step_apply m c t _ r h b hb).trans ?_
  rw [ih, h7, pooledAt_eq_tiles, htk]
  exact (Finset.sum_range_succ _ 7).symm

end Cert.TokenPool.Invariant
end
-- ==== Proof.Final.lean ====
/-
  The pooling kernel's result array, and its run.

  Output block `(b, T)` is written back once, after the last point of its run, and then holds rows
  `512 T … 512 T + 511` of batch row `b` of the pooled array. The 64 blocks tile the [8, 4096, 1024] result, so after
  the run the result array is the pooled array of the two arguments.
-/
import proofs.«420540_j43276090474610_2_alg».proof.Proof.Invariant

noncomputable section

open Idealize.ShloMosaic Idealize.ShloMosaic.TcCoe Idealize.SL.Sem Idealize.ShloMosaic.ValueIdx
open Idealize.ShloMosaic.Pipeline (Dat)

namespace Cert.TokenPool.Final

open Cert.KernelIdeal Cert.KernelIdeal.Gen Cert.TokenPool Cert.TokenPool.Blocks Cert.TokenPool.Invariant

variable (m : (ℓ : Loc nD τ sig) → Buf (Elt Ideal) ℓ) (ρ : Dev nD → PrngReg)

/-- What a run's last point writes back is its block of the pooled array. -/
theorem flushed_eq (c : Dev nD) (t : Fin cfg0.N) (hf : (cfg0.win 2).flush t = true) :
    (dats m 0 c).flushed 2 t = ((cfg0.win 2).blk t).view.read (Elt Ideal) (pooled (xArr m c) (idArr m c)) := by
  have h7 : t.val % 8 = 7 := (flush0_2 t).mp hf
  have hN : t.val < 512 := lt_of_lt_of_eq t.isLt (show cfg0.N = 512 from N_0)
  obtain ⟨-, -, -, -, -, -, i0, i1, i2, -, -⟩ := idx_facts t
  rw [Cert.KernelIdeal.Value.flushed2]
  funext j
  show (outsAt0 m c t.val t.isLt).1 j = pooled (xArr m c) (idArr m c) (((cfg0.win 2).blk t).view.emb j)
  have hj0 : (j 0).val < 1 := (j 0).isLt
  have hj1 : (j 1).val < 512 := (j 1).isLt
  have hj2 : (j 2).val < 1024 := (j 2).isLt
  have hb : t.val / 64 < 8 := by omega
  have hk : t.val / 8 % 8 * 512 + (j 1).val < 4096 := by omega
  have ej : j = ix3 (0 : Fin 1) (⟨(j 1).val, hj1⟩ : Fin 512) (⟨(j 2).val, hj2⟩ : Fin 1024) := by
    funext a; apply Fin.ext
    match a with
    | ⟨0, _⟩ => show (j 0).val = 0; omega
    | ⟨1, _⟩ => rfl
    | ⟨2, _⟩ => rfl
  have ei : ((cfg0.win 2).blk t).view.emb j
      = ix3 (⟨t.val / 64, hb⟩ : Fin 8) (⟨t.val / 8 % 8 * 512 + (j 1).val, hk⟩ : Fin 4096) (⟨(j 2).val, hj2⟩ : Fin 1024) := by
    funext a; apply Fin.ext
    match a with
    | ⟨0, _⟩ => show win0_2.index t 0 * 1 + 1 * (j 0).val = t.val / 64; rw [i0]; omega
    | ⟨1, _⟩ => show win0_2.index t 1 * 512 + 1 * (j 1).val = t.val / 8 % 8 * 512 + (j 1).val; rw [i1]; omega
    | ⟨2, _⟩ => show win0_2.index t 2 * 1024 + 1 * (j 2).val = (j 2).val; rw [i2]; omega
  rw [ei, pooled_apply]
  refine (congrArg (outsAt0 m c t.val t.isLt).1 ej).trans ?_
  exact out_last m c t h7 ⟨t.val / 64, hb⟩ ⟨(j 1).val, hj1⟩ ⟨(j 2).val, hj2⟩ rfl ⟨t.val / 8 % 8 * 512 + (j 1).val, hk⟩ rfl

/-- Every entry of the result lies in the block of some run's last point. -/
theorem cover (i : S8x4096x1024.Idx) :
    ∃ t : Fin cfg0.N, (cfg0.win 2).flush t = true ∧ i ∈ ((cfg0.win 2).blk t).view.set := by
  have h0 : (i 0).val < 8 := (i 0).isLt
  have h1 : (i 1).val < 4096 := (i 1).isLt
  have h2 : (i 2).val < 1024 := (i 2).isLt
  have hN : cfg0.N = 512 := N_0
  let t : Fin cfg0.N := ⟨(i 0).val * 64 + (i 1).val / 512 * 8 + 7, by rw [hN]; omega⟩
  have ht : t.val = (i 0).val * 64 + (i 1).val / 512 * 8 + 7 := rfl
  obtain ⟨-, -, -, -, -, -, i0, i1, i2, -, -⟩ := idx_facts t
  refine ⟨t, (flush0_2 t).mpr (by rw [ht]; omega), ?_⟩
  show i ∈ ((View.whole main_v1).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [i0, ht]; omega
  | ⟨1, _⟩ =>
    show win0_2.index t 1 * 512 ≤ (i 1).val ∧ (i 1).val < win0_2.index t 1 * 512 + 512
    rw [i1, ht]; omega
  | ⟨2, _⟩ =>
    show win0_2.index t 2 * 1024 ≤ (i 2).val ∧ (i 2).val < win0_2.index t 2 * 1024 + 1024
    rw [i2]; omega

/-- After the run the result array is the pooled array. -/
theorem final (c : Dev nD) : (dats m 0 c).arrAt 2 cfg0.N = pooled (xArr m c) (idArr m c) :=
  (dats m 0 c).arrAt_eq_of_cover 2 (pooled (xArr m c) (idArr m c)) (flushed_eq m c) cover

/-- The kernel's run: it ends with the result at the pooled array of the arguments, which are unchanged. -/
theorem run : θ_run defs (onTc (τ := τ) (main (F := Ideal))) ⟨m, fun _ => 0, ρ⟩ fun r => ∀ c : Dev nD,
      r.2.mem ((c : Thread nD τ).loc main_v1) = pooled (xArr m c) (idArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.TokenPool.Final

end
-- ==== Proof.LibSegmentSum.lean ====
/-
  A segment sum read at one of its entries, and a batched row gather read at one of its entries.

  A scatter with an additive body whose scatter indices are an [n × 1] column of words adds update `i` to the
  operand entry that word `i` names (read signed, not clamped; an entry the word does not name receives
  nothing). At the exact instance each operand entry therefore ends at its own value plus the sum of the updates
  whose word names it. Three layouts of the same operation are read here: a vector of `P` segments; `B` rows of
  `P` segments fed by `B` rows of updates; and `P` segments of `C` columns fed by `n` rows of `C` columns.

  A gather that reads, for each of `n` words, one column of a [B × N] table (all `B` rows of it) returns at
  (b, i) the table's entry in row `b` at the column word `i` names, read signed and clamped into `[0, N − 1]`.
-/
import Idealize.ShloMosaic.PureOps.Ideal
import Idealize.ShloMosaic.PureOps.Contract
import Idealize.ShloMosaic.Lib.ValueIdx

noncomputable section

namespace Idealize.ShloMosaic.SegmentSum

open Idealize.ShloMosaic.ValueIdx

/-- Row `i` of an [n × 1] column of words. -/
abbrev colIx {n : Nat} (i : Fin n) : (⟨2, ![n, 1]⟩ : Shape).Idx := ix2 i (0 : Fin 1)

/-! ## A vector of segments -/

/-- The dimension numbers of `segment_sum` over a vector: operand [P], words [n × 1], updates [n]. -/
abbrev dimsVec (P n : Nat) (wf : ScatterDims.WF ⟨1, ![P]⟩ ⟨2, ![n, 1]⟩ ⟨1, ![n]⟩ [] [0] [0] 1) :
    ScatterDims ⟨1, ![P]⟩ ⟨2, ![n, 1]⟩ ⟨1, ![n]⟩ where
  updateWindowDims := []
  insertedWindowDims := [0]
  scatterDimsToOperandDims := [0]
  indexVectorDim := 1
  wf := wf

section Vec
variable {P n w : Nat} (wf : ScatterDims.WF ⟨1, ![P]⟩ ⟨2, ![n, 1]⟩ ⟨1, ![n]⟩ [] [0] [0] 1)

/-- The operand's one axis starts at the word the update's coordinate names. -/
private theorem vec_start0 (j : (⟨1, ![n]⟩ : Shape).Idx) (idx : IVec ⟨2, ![n, 1]⟩ w) :
    (dimsVec P n wf).start j idx 0 = (idx (colIx (j 0))).toInt := by
  unfold ScatterDims.start
  rw [dif_pos (show (0 : Fin 1) ∈ (dimsVec P n wf).scatterDimsToOperandDims from List.mem_singleton.mpr rfl)]
  congr 2
  funext b; refine Fin.ext ?_
  match b with
  | ⟨0, _⟩ => rfl
  | ⟨1, _⟩ => rfl

/-- The operand's one axis is inserted: no window coordinate. -/
private theorem vec_window0 (j : (⟨1, ![n]⟩ : Shape).Idx) :
    (dimsVec P n wf).window j 0 = 0 := by
  unfold ScatterDims.window
  have h : (0 : Fin 1) ∉ (dimsVec P n wf).sKept :=
    show (0 : Fin 1) ∉ (List.finRange 1).filter (· ∉ ([0] : List (Fin 1))) by decide
  rw [dif_neg h]

/-- An update lands on segment `p` exactly when its word is `p`. -/
private theorem vec_resultIdx_iff (j : (⟨1, ![n]⟩ : Shape).Idx) (idx : IVec ⟨2, ![n, 1]⟩ w) (p : Fin P) :
    (dimsVec P n wf).resultIdx? j idx = some (ix1 p) ↔ (idx (colIx (j 0))).toInt = (p.val : Int) := by
  have hs0 : (⟨1, ![P]⟩ : Shape).size 0 = P := rfl
  unfold ScatterDims.resultIdx?
  split
  · rename_i h
    rw [Option.some.injEq]
    constructor
    · intro he
      have h0 := congrArg Fin.val (congrFun he 0)
      have g0 := h 0
      simp only [vec_start0, vec_window0] at h0 g0
      change _ = p.val at h0
      omega
    · intro h0
      funext a
      refine Fin.ext ?_
      match a with
      | ⟨0, _⟩ =>
        show ((dimsVec P n wf).start j idx 0 + ((dimsVec P n wf).window j 0 : Int)).toNat = p.val
        rw [vec_start0, vec_window0, h0]; omega
  · rename_i h
    constructor
    · intro he; exact absurd he (by simp)
    · intro h0
      exfalso; apply h
      intro a
      match a with
      | ⟨0, _⟩ =>
        show 0 ≤ (dimsVec P n wf).start j idx 0 + ((dimsVec P n wf).window j 0 : Int)
          ∧ (dimsVec P n wf).start j idx 0 + ((dimsVec P n wf).window j 0 : Int) < ((⟨1, ![P]⟩ : Shape).size 0 : Nat)
        have := p.isLt
        rw [vec_start0, vec_window0, h0, hs0]; omega
end Vec

/-- Segment `p` ends at its own value plus the sum of the updates whose word is `p`. -/
theorem scatterAdd_vec_apply {P n w : Nat} (wf : ScatterDims.WF ⟨1, ![P]⟩ ⟨2, ![n, 1]⟩ ⟨1, ![n]⟩ [] [0] [0] 1)
    (x : (⟨1, ![P]⟩ : Shape).Idx → EReal) (idx : IVec ⟨2, ![n, 1]⟩ w) (upd : (⟨1, ![n]⟩ : Shape).Idx → EReal) (p : Fin P) :
    Ideal.hostScatterAdd (dimsVec P n wf) x idx upd (ix1 p)
      = x (ix1 p) + ∑ i ∈ Finset.univ.filter (fun i : Fin n => (idx (colIx i)).toInt = (p.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (vec_resultIdx_iff wf j idx p).mp hj'⟩
  · intro i hi
    have hi' := (Finset.mem_filter.mp hi).2
    exact Finset.mem_filter.mpr ⟨Finset.mem_univ _, (vec_resultIdx_iff wf (ix1 i) idx p).mpr hi'⟩
  · intro j _
    exact (eq_ix1 j).symm
  · intro i _
    rfl
  · intro j _
    exact congrArg upd (eq_ix1 j)

/-! ## Rows of segments -/

/-- Operand [B × P], words [n × 1], updates [B × n]: update column `i` goes, whole, to operand column word `i` names. -/
abbrev dimsRows (B P n : Nat) (wf : ScatterDims.WF ⟨2, ![B, P]⟩ ⟨2, ![n, 1]⟩ ⟨2, ![B, n]⟩ [0] [1] [1] 1) :
    ScatterDims ⟨2, ![B, P]⟩ ⟨2, ![n, 1]⟩ ⟨2, ![B, n]⟩ where
  updateWindowDims := [0]
  insertedWindowDims := [1]
  scatterDimsToOperandDims := [1]
  indexVectorDim := 1
  wf := wf

section Rows
variable {B P n w : Nat} (wf : ScatterDims.WF ⟨2, ![B, P]⟩ ⟨2, ![n, 1]⟩ ⟨2, ![B, n]⟩ [0] [1] [1] 1)

/-- Axis 0 of the operand is not named by the map: its start is 0. -/
private theorem rows_start0 (j : (⟨2, ![B, n]⟩ : Shape).Idx) (idx : IVec ⟨2, ![n, 1]⟩ w) :
    (dimsRows B P n wf).start j idx 0 = 0 := by
  unfold ScatterDims.start
  rw [dif_neg (show (0 : Fin 2) ∉ ([1] : List (Fin 2)) by decide)]

/-- Axis 1 of the operand starts at the word the update's second coordinate names. -/
private theorem rows_start1 (j : (⟨2, ![B, n]⟩ : Shape).Idx) (idx : IVec ⟨2, ![n, 1]⟩ w) :
    (dimsRows B P n wf).start j idx 1 = (idx (colIx (j 1))).toInt := by
  unfold ScatterDims.start
  rw [dif_pos (show (1 : Fin 2) ∈ (dimsRows B P n wf).scatterDimsToOperandDims from List.mem_singleton.mpr rfl)]
  congr 2
  funext b; refine Fin.ext ?_
  match b with
  | ⟨0, _⟩ => rfl
  | ⟨1, _⟩ => rfl

/-- Axis 0 of the operand is the window axis: its window coordinate is the update's first coordinate. -/
private theorem rows_window0 (j : (⟨2, ![B, n]⟩ : Shape).Idx) :
    (dimsRows B P n wf).window j 0 = (j 0).val := by
  unfold ScatterDims.window
  have h : (0 : Fin 2) ∈ (dimsRows B P n wf).sKept :=
    show (0 : Fin 2) ∈ (List.finRange 2).filter (· ∉ ([1] : List (Fin 2))) by decide
  rw [dif_pos h]
  rfl

/-- Axis 1 of the operand is inserted: no window coordinate. -/
private theorem rows_window1 (j : (⟨2, ![B, n]⟩ : Shape).Idx) :
    (dimsRows B P n wf).window j 1 = 0 := by
  unfold ScatterDims.window
  have h : (1 : Fin 2) ∉ (dimsRows B P n wf).sKept :=
    show (1 : Fin 2) ∉ (List.finRange 2).filter (· ∉ ([1] : List (Fin 2))) by decide
  rw [dif_neg h]

/-- An update lands on entry (b, p) exactly when it sits in row `b` and its word is `p`. -/
private theorem rows_resultIdx_iff (j : (⟨2, ![B, n]⟩ : Shape).Idx) (idx : IVec ⟨2, ![n, 1]⟩ w) (b : Fin B) (p : Fin P) :
    (dimsRows B P n wf).resultIdx? j idx = some (ix2 b p)
      ↔ j 0 = b ∧ (idx (colIx (j 1))).toInt = (p.val : Int) := by
  have hb := (j 0).isLt
  have hB : (⟨2, ![B, n]⟩ : Shape).size 0 = B := rfl
  have hs0 : (⟨2, ![B, P]⟩ : Shape).size 0 = B := rfl
  have hs1 : (⟨2, ![B, P]⟩ : Shape).size 1 = P := rfl
  unfold ScatterDims.resultIdx?
  split
  · rename_i h
    rw [Option.some.injEq]
    constructor
    · intro he
      have h0 := congrArg Fin.val (congrFun he 0)
      have h1 := congrArg Fin.val (congrFun he 1)
      have g1 := h 1
      simp only [rows_start0, rows_start1, rows_window0, rows_window1] at h0 h1 g1
      change _ = b.val at h0
      change _ = p.val at h1
      refine ⟨Fin.ext ?_, ?_⟩ <;> omega
    · rintro ⟨h0, h1⟩
      funext a
      refine Fin.ext ?_
      match a with
      | ⟨0, _⟩ =>
        show ((dimsRows B P n wf).start j idx 0 + ((dimsRows B P n wf).window j 0 : Int)).toNat = b.val
        rw [rows_start0, rows_window0, ← h0]; omega
      | ⟨1, _⟩ =>
        show ((dimsRows B P n wf).start j idx 1 + ((dimsRows B P n wf).window j 1 : Int)).toNat = p.val
        rw [rows_start1, rows_window1, h1]; omega
  · rename_i h
    constructor
    · intro he; exact absurd he (by simp)
    · rintro ⟨h0, h1⟩
      exfalso; apply h
      intro a
      match a with
      | ⟨0, _⟩ =>
        show 0 ≤ (dimsRows B P n wf).start j idx 0 + ((dimsRows B P n wf).window j 0 : Int)
          ∧ (dimsRows B P n wf).start j idx 0 + ((dimsRows B P n wf).window j 0 : Int) < ((⟨2, ![B, P]⟩ : Shape).size 0 : Nat)
        rw [rows_start0, rows_window0, hs0]; omega
      | ⟨1, _⟩ =>
        show 0 ≤ (dimsRows B P n wf).start j idx 1 + ((dimsRows B P n wf).window j 1 : Int)
          ∧ (dimsRows B P n wf).start j idx 1 + ((dimsRows B P n wf).window j 1 : Int) < ((⟨2, ![B, P]⟩ : Shape).size 1 : Nat)
        have := p.isLt
        rw [rows_start1, rows_window1, h1, hs1]; omega
end Rows

/-- Entry (b, p) ends at its own value plus the sum over the words equal to `p` of row `b` of the updates. -/
theorem scatterAdd_rows_apply {B P n w : Nat} (wf : ScatterDims.WF ⟨2, ![B, P]⟩ ⟨2, ![n, 1]⟩ ⟨2, ![B, n]⟩ [0] [1] [1] 1)
    (x : (⟨2, ![B, P]⟩ : Shape).Idx → EReal) (idx : IVec ⟨2, ![n, 1]⟩ w) (upd : (⟨2, ![B, n]⟩ : Shape).Idx → EReal)
    (b : Fin B) (p : Fin P) :
    Ideal.hostScatterAdd (dimsRows B P n wf) x idx upd (ix2 b p)
      = x (ix2 b p) + ∑ i ∈ Finset.univ.filter (fun i : Fin n => (idx (colIx i)).toInt = (p.val : Int)), upd (ix2 b i) := by
  unfold Ideal.hostScatterAdd
  congr 1
  refine Finset.sum_nbij' (fun j => (j 1 : Fin n)) (fun i => ix2 b i) ?_ ?_ ?_ ?_ ?_
  · intro j hj
    have hj' := (Finset.mem_filter.mp hj).2
    exact Finset.mem_filter.mpr ⟨Finset.mem_univ _, ((rows_resultIdx_iff wf j idx b p).mp hj').2⟩
  · intro i hi
    have hi' := (Finset.mem_filter.mp hi).2
    exact Finset.mem_filter.mpr ⟨Finset.mem_univ _, (rows_resultIdx_iff wf (ix2 b i) idx b p).mpr ⟨rfl, hi'⟩⟩
  · intro j hj
    have h0 := ((rows_resultIdx_iff wf j idx b p).mp (Finset.mem_filter.mp hj).2).1
    show ix2 b (j 1) = j
    rw [← h0]; exact (eq_ix2 j).symm
  · intro i _
    rfl
  · intro j hj
    have h0 := ((rows_resultIdx_iff wf j idx b p).mp (Finset.mem_filter.mp hj).2).1
    show upd j = upd (ix2 b (j 1))
    rw [← h0]; exact congrArg upd (eq_ix2 j)

/-! ## Segments of columns -/

/-- Operand [P × C], words [n × 1], updates [n × C]: update row `i` goes, whole, to operand row word `i` names. -/
abbrev dimsCols (P C n : Nat) (wf : ScatterDims.WF ⟨2, ![P, C]⟩ ⟨2, ![n, 1]⟩ ⟨2, ![n, C]⟩ [1] [0] [0] 1) :
    ScatterDims ⟨2, ![P, C]⟩ ⟨2, ![n, 1]⟩ ⟨2, ![n, C]⟩ where
  updateWindowDims := [1]
  insertedWindowDims := [0]
  scatterDimsToOperandDims := [0]
  indexVectorDim := 1
  wf := wf

section Cols
variable {P C n w : Nat} (wf : ScatterDims.WF ⟨2, ![P, C]⟩ ⟨2, ![n, 1]⟩ ⟨2, ![n, C]⟩ [1] [0] [0] 1)

/-- Axis 0 of the operand starts at the word the update's first coordinate names. -/
private theorem cols_start0 (j : (⟨2, ![n, C]⟩ : Shape).Idx) (idx : IVec ⟨2, ![n, 1]⟩ w) :
    (dimsCols P C n wf).start j idx 0 = (idx (colIx (j 0))).toInt := by
  unfold ScatterDims.start
  rw [dif_pos (show (0 : Fin 2) ∈ (dimsCols P C n wf).scatterDimsToOperandDims from List.mem_singleton.mpr rfl)]
  congr 2
  funext b; refine Fin.ext ?_
  match b with
  | ⟨0, _⟩ => rfl
  | ⟨1, _⟩ => rfl

/-- Axis 1 of the operand is not named by the map: its start is 0. -/
private theorem cols_start1 (j : (⟨2, ![n, C]⟩ : Shape).Idx) (idx : IVec ⟨2, ![n, 1]⟩ w) :
    (dimsCols P C n wf).start j idx 1 = 0 := by
  unfold ScatterDims.start
  rw [dif_neg (show (1 : Fin 2) ∉ ([0] : List (Fin 2)) by decide)]

/-- Axis 0 of the operand is inserted: no window coordinate. -/
private theorem cols_window0 (j : (⟨2, ![n, C]⟩ : Shape).Idx) :
    (dimsCols P C n wf).window j 0 = 0 := by
  unfold ScatterDims.window
  have h : (0 : Fin 2) ∉ (dimsCols P C n wf).sKept :=
    show (0 : Fin 2) ∉ (List.finRange 2).filter (· ∉ ([0] : List (Fin 2))) by decide
  rw [dif_neg h]

/-- Axis 1 of the operand is the window axis: its window coordinate is the update's second coordinate. -/
private theorem cols_window1 (j : (⟨2, ![n, C]⟩ : Shape).Idx) :
    (dimsCols P C n wf).window j 1 = (j 1).val := by
  unfold ScatterDims.window
  have h : (1 : Fin 2) ∈ (dimsCols P C n wf).sKept :=
    show (1 : Fin 2) ∈ (List.finRange 2).filter (· ∉ ([0] : List (Fin 2))) by decide
  rw [dif_pos h]
  rfl

/-- An update lands on entry (p, c) exactly when its word is `p` and it sits in column `c`. -/
private theorem cols_resultIdx_iff (j : (⟨2, ![n, C]⟩ : Shape).Idx) (idx : IVec ⟨2, ![n, 1]⟩ w) (p : Fin P) (c : Fin C) :
    (dimsCols P C n wf).resultIdx? j idx = some (ix2 p c)
      ↔ (idx (colIx (j 0))).toInt = (p.val : Int) ∧ j 1 = c := by
  have hc := (j 1).isLt
  have hC : (⟨2, ![n, C]⟩ : Shape).size 1 = C := rfl
  have hs0 : (⟨2, ![P, C]⟩ : Shape).size 0 = P := rfl
  have hs1 : (⟨2, ![P, C]⟩ : Shape).size 1 = C := rfl
  unfold ScatterDims.resultIdx?
  split
  · rename_i h
    rw [Option.some.injEq]
    constructor
    · intro he
      have h0 := congrArg Fin.val (congrFun he 0)
      have h1 := congrArg Fin.val (congrFun he 1)
      have g0 := h 0
      simp only [cols_start0, cols_start1, cols_window0, cols_window1] at h0 h1 g0
      change _ = p.val at h0
      change _ = c.val at h1
      refine ⟨?_, Fin.ext ?_⟩ <;> omega
    · rintro ⟨h0, h1⟩
      funext a
      refine Fin.ext ?_
      match a with
      | ⟨0, _⟩ =>
        show ((dimsCols P C n wf).start j idx 0 + ((dimsCols P C n wf).window j 0 : Int)).toNat = p.val
        rw [cols_start0, cols_window0, h0]; omega
      | ⟨1, _⟩ =>
        show ((dimsCols P C n wf).start j idx 1 + ((dimsCols P C n wf).window j 1 : Int)).toNat = c.val
        rw [cols_start1, cols_window1, ← h1]; omega
  · rename_i h
    constructor
    · intro he; exact absurd he (by simp)
    · rintro ⟨h0, h1⟩
      exfalso; apply h
      intro a
      match a with
      | ⟨0, _⟩ =>
        show 0 ≤ (dimsCols P C n wf).start j idx 0 + ((dimsCols P C n wf).window j 0 : Int)
          ∧ (dimsCols P C n wf).start j idx 0 + ((dimsCols P C n wf).window j 0 : Int) < ((⟨2, ![P, C]⟩ : Shape).size 0 : Nat)
        have := p.isLt
        rw [cols_start0, cols_window0, h0, hs0]; omega
      | ⟨1, _⟩ =>
        show 0 ≤ (dimsCols P C n wf).start j idx 1 + ((dimsCols P C n wf).window j 1 : Int)
          ∧ (dimsCols P C n wf).start j idx 1 + ((dimsCols P C n wf).window j 1 : Int) < ((⟨2, ![P, C]⟩ : Shape).size 1 : Nat)
        rw [cols_start1, cols_window1, hs1]; omega
end Cols

/-- Entry (p, c) ends at its own value plus the sum over the words equal to `p` of column `c` of the updates. -/
theorem scatterAdd_cols_apply {P C n w : Nat} (wf : ScatterDims.WF ⟨2, ![P, C]⟩ ⟨2, ![n, 1]⟩ ⟨2, ![n, C]⟩ [1] [0] [0] 1)
    (x : (⟨2, ![P, C]⟩ : Shape).Idx → EReal) (idx : IVec ⟨2, ![n, 1]⟩ w) (upd : (⟨2, ![n, C]⟩ : Shape).Idx → EReal)
    (p : Fin P) (c : Fin C) :
    Ideal.hostScatterAdd (dimsCols P C n wf) x idx upd (ix2 p c)
      = x (ix2 p c) + ∑ i ∈ Finset.univ.filter (fun i : Fin n => (idx (colIx i)).toInt = (p.val : Int)), upd (ix2 i c) := by
  unfold Ideal.hostScatterAdd
  congr 1
  refine Finset.sum_nbij' (fun j => (j 0 : Fin n)) (fun i => ix2 i c) ?_ ?_ ?_ ?_ ?_
  · intro j hj
    have hj' := (Finset.mem_filter.mp hj).2
    exact Finset.mem_filter.mpr ⟨Finset.mem_univ _, ((cols_resultIdx_iff wf j idx p c).mp hj').1⟩
  · intro i hi
    have hi' := (Finset.mem_filter.mp hi).2
    exact Finset.mem_filter.mpr ⟨Finset.mem_univ _, (cols_resultIdx_iff wf (ix2 i c) idx p c).mpr ⟨hi', rfl⟩⟩
  · intro j hj
    have h1 := ((cols_resultIdx_iff wf j idx p c).mp (Finset.mem_filter.mp hj).2).2
    show ix2 (j 0) c = j
    rw [← h1]; exact (eq_ix2 j).symm
  · intro i _
    rfl
  · intro j hj
    have h1 := ((cols_resultIdx_iff wf j idx p c).mp (Finset.mem_filter.mp hj).2).2
    show upd j = upd (ix2 (j 0) c)
    rw [← h1]; exact congrArg upd (eq_ix2 j)

/-! ## A gather of whole columns of a table -/

/-- Operand [B × N], words [n × 1], result [B × n]: for each word one column of the table, all `B` rows of it. -/
abbrev dimsTakeCols (B N n : Nat)
    (wf : GatherDims.WF ⟨2, ![B, N]⟩ ⟨2, ![n, 1]⟩ ⟨2, ![B, n]⟩ [0] [1] [] [1] [] 1 ![B, 1]) :
    GatherDims ⟨2, ![B, N]⟩ ⟨2, ![n, 1]⟩ ⟨2, ![B, n]⟩ where
  offsetDims := [0]
  collapsedSliceDims := [1]
  operandBatchingDims := []
  startIndicesBatchingDims := []
  startIndexMap := [1]
  indexVectorDim := 1
  sliceSizes := ![B, 1]
  wf := wf

/-- Entry (b, i) of the result is the table's row `b` at the column word `i` names, signed and clamped. -/
theorem gather_cols_apply {α : Type} {B N n w : Nat} (hN : 0 < N)
    (wf : GatherDims.WF ⟨2, ![B, N]⟩ ⟨2, ![n, 1]⟩ ⟨2, ![B, n]⟩ [0] [1] [] [1] [] 1 ![B, 1])
    (x : (⟨2, ![B, N]⟩ : Shape).Idx → α) (idx : IVec ⟨2, ![n, 1]⟩ w) (b : Fin B) (i : Fin n) :
    Host.gather (dimsTakeCols B N n wf) x idx (ix2 b i)
      = x (ix2 b ⟨min (idx (colIx i)).toInt.toNat (N - 1), by omega⟩) := by
  unfold Host.gather
  congr 1
  funext a
  refine Fin.ext ?_
  have hob : ∀ a : Fin 2, a ∉ (dimsTakeCols B N n wf).operandBatchingDims := fun _ => List.not_mem_nil
  match a with
  | ⟨0, _⟩ =>
    -- the row axis: not start-indexed, an offset axis read off the result's first coordinate
    show (dimsTakeCols B N n wf).start (ix2 b i) idx 0 + (dimsTakeCols B N n wf).batchCoord (ix2 b i) 0
      + (dimsTakeCols B N n wf).offCoord (ix2 b i) 0 = b.val
    rw [GatherDims.batchCoord_eq_zero _ _ _ (hob 0)]
    unfold GatherDims.start GatherDims.offCoord
    have hk : (0 : Fin 2) ∈ (dimsTakeCols B N n wf).sKept :=
      show (0 : Fin 2) ∈ (List.finRange 2).filter (· ∉ (([1] : List (Fin 2)) ++ [])) by decide
    rw [dif_neg (show (0 : Fin 2) ∉ ([1] : List (Fin 2)) by decide), dif_pos hk]
    simp only [Nat.zero_add, Nat.add_zero]
    rfl
  | ⟨1, _⟩ =>
    -- the column axis: start-indexed and collapsed, the word clamped into the table
    show (dimsTakeCols B N n wf).start (ix2 b i) idx 1 + (dimsTakeCols B N n wf).batchCoord (ix2 b i) 1
      + (dimsTakeCols B N n wf).offCoord (ix2 b i) 1 = min (idx (colIx i)).toInt.toNat (N - 1)
    have hk : (1 : Fin 2) ∉ (dimsTakeCols B N n wf).sKept :=
      show (1 : Fin 2) ∉ (List.finRange 2).filter (· ∉ (([1] : List (Fin 2)) ++ [])) by decide
    rw [GatherDims.batchCoord_eq_zero _ _ _ (hob 1), GatherDims.offCoord_eq_zero _ _ _ hk]
    simp only [Nat.add_zero]
    unfold GatherDims.start
    rw [dif_pos (show (1 : Fin 2) ∈ (dimsTakeCols B N n wf).startIndexMap from List.mem_singleton.mpr rfl)]
    have hsi : (dimsTakeCols B N n wf).siIdx (ix2 b i) ⟨List.idxOf (1 : Fin 2) (dimsTakeCols B N n wf).startIndexMap,
        List.idxOf_lt_length_iff.2 (List.mem_singleton.mpr rfl)⟩ = colIx i := by
      funext c; refine Fin.ext ?_
      match c with
      | ⟨0, _⟩ => rfl
      | ⟨1, _⟩ => rfl
    rw [hsi]
    rfl

end Idealize.ShloMosaic.SegmentSum

end
-- ==== Proof.LibSegmentSumHost.lean ====
/-
  The segment-sum reads, stated for the host's accumulating scatter at the exact instance.

  At the exact instance the host's scatter with an additive body is, by definition, the operand plus the sum of the
  updates landing on each entry. With the sizes left as variables that identification is immediate; stated once
  here, a program at concrete sizes rewrites with these forms and never opens the scatter itself.
-/
import proofs.«420540_j43276090474610_2_alg».proof.Proof.LibSegmentSum

noncomputable section

namespace Idealize.ShloMosaic.SegmentSum

open Idealize.ShloMosaic.ValueIdx

/-- A vector of segments: segment `p` ends at its own value plus the sum of the updates whose word is `p`. -/
theorem scatterAdd_vec_host {P n w : Nat} {φ : FTy}
    (wf : ScatterDims.WF ⟨1, ![P]⟩ ⟨2, ![n, 1]⟩ ⟨1, ![n]⟩ [] [0] [0] 1)
    (x : FVec Ideal ⟨1, ![P]⟩ φ) (idx : IVec ⟨2, ![n, 1]⟩ w) (upd : FVec Ideal ⟨1, ![n]⟩ φ) (p : Fin P) :
    Host.scatterAdd (dimsVec P n wf) x idx upd (ix1 p)
      = x (ix1 p) + ∑ i ∈ Finset.univ.filter (fun i : Fin n => (idx (colIx i)).toInt = (p.val : Int)), upd (ix1 i) :=
  scatterAdd_vec_apply wf x idx upd p

/-- Rows of segments: entry (b, p) ends at its own value plus the sum, over the words equal to `p`, of row `b` of the updates. -/
theorem scatterAdd_rows_host {B P n w : Nat} {φ : FTy}
    (wf : ScatterDims.WF ⟨2, ![B, P]⟩ ⟨2, ![n, 1]⟩ ⟨2, ![B, n]⟩ [0] [1] [1] 1)
    (x : FVec Ideal ⟨2, ![B, P]⟩ φ) (idx : IVec ⟨2, ![n, 1]⟩ w) (upd : FVec Ideal ⟨2, ![B, n]⟩ φ)
    (b : Fin B) (p : Fin P) :
    Host.scatterAdd (dimsRows B P n wf) x idx upd (ix2 b p)
      = x (ix2 b p) + ∑ i ∈ Finset.univ.filter (fun i : Fin n => (idx (colIx i)).toInt = (p.val : Int)), upd (ix2 b i) :=
  scatterAdd_rows_apply wf x idx upd b p

/-- Segments of columns: entry (p, c) ends at its own value plus the sum, over the words equal to `p`, of column `c` of the updates. -/
theorem scatterAdd_cols_host {P C n w : Nat} {φ : FTy}
    (wf : ScatterDims.WF ⟨2, ![P, C]⟩ ⟨2, ![n, 1]⟩ ⟨2, ![n, C]⟩ [1] [0] [0] 1)
    (x : FVec Ideal ⟨2, ![P, C]⟩ φ) (idx : IVec ⟨2, ![n, 1]⟩ w) (upd : FVec Ideal ⟨2, ![n, C]⟩ φ)
    (p : Fin P) (c : Fin C) :
    Host.scatterAdd (dimsCols P C n wf) x idx upd (ix2 p c)
      = x (ix2 p c) + ∑ i ∈ Finset.univ.filter (fun i : Fin n => (idx (colIx i)).toInt = (p.val : Int)), upd (ix2 i c) :=
  scatterAdd_cols_apply wf x idx upd p c

end Idealize.ShloMosaic.SegmentSum

end
-- ==== Proof.RefSide.lean ====
/-
  The reference side: the reference program's result is the pooled array when every word is in range.

  The program flattens the [8 × 4096] table of words to 32768 segment words, adding 4096 times the row to each word,
  flattens the first argument to 32768 rows of 1024 columns, adds each row into the segment its word names (starting
  from the zero array), and reshapes the [32768 × 1024] result back to [8 × 4096 × 1024]. At (b, t, h) the result is
  therefore the sum, over the flat positions k whose segment word read signed is 4096 b + t, of x[k / 4096, k % 4096, h].
  With every word below 4096 no 32-bit sum wraps and the segment word of k is word + 4096 (k / 4096) < 32768, so it is
  4096 b + t exactly when k lies in row b and the word there is t: the sum is over the positions w of row b whose
  word is t, which is the pooled value.
-/
import proofs.«420540_j43276090474610_2_alg».proof.Proof.Spec
import proofs.«420540_j43276090474610_2_alg».proof.Proof.Gen.ReferenceIdeal.Read
import proofs.«420540_j43276090474610_2_alg».proof.Proof.LibSegmentSumHost
import Idealize.ShloMosaic.PureOps.Ideal.Laws

noncomputable section

namespace Cert.TokenPool.RefSide

open Cert.ReferenceIdeal Cert.ReferenceIdeal.Gen Cert.ReferenceIdeal.Read
open Idealize.ShloMosaic Idealize.ShloMosaic.ValueIdx Idealize.ShloMosaic.SegmentSum

/-- The row of the flat position `k`. -/
abbrev rowOf (k : Fin 32768) : Fin 8 := ⟨k.val / 4096, by have := k.isLt; omega⟩
/-- The position of the flat position `k` inside its row. -/
abbrev colOf (k : Fin 32768) : Fin 4096 := ⟨k.val % 4096, by omega⟩
/-- The flat position of position `w` of row `b`. -/
abbrev flat (b : Fin 8) (w : Fin 4096) : Fin 32768 := ⟨b.val * 4096 + w.val, by have := b.isLt; have := w.isLt; omega⟩

/-- A word below 4096 plus 4096 times a row below 8 does not wrap at 32 bits and stays below 2^31:
    read signed it is the sum of the naturals. -/
theorem seg_toInt (a : BitVec 32) (q : Nat) (ha : a.toNat < 4096) (hq : q < 8) :
    (IntOp.addi a (IntOp.muli (BitVec.ofNat 32 q) 4096#32)).toInt = ((a.toNat + 4096 * q : Nat) : Int) := by
  show (a + BitVec.ofNat 32 q * 4096#32).toInt = _
  have hn : (a + BitVec.ofNat 32 q * 4096#32).toNat = a.toNat + 4096 * q := by
    rw [BitVec.toNat_add, BitVec.toNat_mul, BitVec.toNat_ofNat]
    simp only [BitVec.toNat_ofNat]
    omega
  rw [BitVec.toInt_eq_toNat_cond, hn]
  rw [if_pos (by omega)]

/-- The segment word of flat position `k`: the table's word there plus 4096 times the row. -/
theorem seg_apply (x1 : IVec ⟨2, ![8, 4096]⟩ 32) (k : Fin 32768) :
    val_main_v9 (F := Ideal) x1 (colIx k)
      = IntOp.addi (x1 (ix2 (rowOf k) (colOf k))) (IntOp.muli (BitVec.ofNat 32 (k.val / 4096)) 4096#32) := by
  rw [val_main_v9_apply, val_main_v7_apply, val_main_v5_apply, val_main_v4_apply, val_main_v3_apply,
    val_main_v1_apply, val_main_v0_apply, val_main_v2_apply, val_main_c_apply]
  have h1 : idx_main_v7 (idx_main_v9 (colIx k)) = ix2 (rowOf k) (colOf k) := by
    funext a; match a with | ⟨0, _⟩ => rfl | ⟨1, _⟩ => rfl
  rw [h1]

/-- The update row of flat position `k` is row `k / 4096`, position `k % 4096` of the first argument. -/
theorem upd_apply (x0 : FVec Ideal ⟨3, ![8, 4096, 1024]⟩ .f32) (k : Fin 32768) (c : Fin 1024) :
    val_main_v6 (F := Ideal) x0 (ix2 k c) = x0 (ix3 (rowOf k) (colOf k) c) := by
  rw [val_main_v6_apply]
  congr 1
  funext a
  refine Fin.ext ?_
  have := k.isLt; have := c.isLt
  match a with
  | ⟨0, _⟩ => show (k.val * 1024 + c.val) / 4194304 = k.val / 4096; omega
  | ⟨1, _⟩ => show (k.val * 1024 + c.val) / 1024 % 4096 = k.val % 4096; omega
  | ⟨2, _⟩ => show (k.val * 1024 + c.val) % 1024 = c.val; omega

/-- With every word in range, the segment word of flat position `k` names segment `4096 b + t` exactly when `k`
    lies in row `b` and the table's word there is `t`. -/
theorem seg_eq_iff (x1 : IVec ⟨2, ![8, 4096]⟩ 32) (hr : InRange x1) (b : Fin 8) (t : Fin 4096) (k : Fin 32768) :
    (val_main_v9 (F := Ideal) x1 (colIx k)).toInt = ((b.val * 4096 + t.val : Nat) : Int)
      ↔ rowOf k = b ∧ x1 (ix2 b (colOf k)) = BitVec.ofNat 32 t.val := by
  have hk := k.isLt; have hb := b.isLt; have ht := t.isLt
  have ha := hr (rowOf k) (colOf k)
  rw [seg_apply, seg_toInt _ _ ha (by omega)]
  constructor
  · intro h
    have hq : k.val / 4096 = b.val := by omega
    have hrow : rowOf k = b := Fin.ext hq
    refine ⟨hrow, ?_⟩
    rw [← hrow]
    apply BitVec.eq_of_toNat_eq
    rw [BitVec.toNat_ofNat]
    omega
  · rintro ⟨hrow, hw⟩
    have hq : k.val / 4096 = b.val := congrArg Fin.val hrow
    rw [← hrow] at hw
    have := congrArg BitVec.toNat hw
    rw [BitVec.toNat_ofNat] at this
    omega

/-- The reference's result is the pooled array when every word is in range. -/
theorem reference_eq (x0 : FVec Ideal ⟨3, ![8, 4096, 1024]⟩ .f32) (x1 : IVec ⟨2, ![8, 4096]⟩ 32)
    (hr : Cert.TokenPool.InRange x1) :
    Cert.ReferenceIdeal.Read.val_main_v11 (F := Ideal) x0 x1 = Cert.TokenPool.pooled x0 x1 := by
  funext i
  obtain ⟨b, t, h, rfl⟩ : ∃ b t h, i = ix3 b t h := ⟨i 0, i 1, i 2, eq_ix3 i⟩
  rw [val_main_v11_apply, pooled_apply]
  have hb := b.isLt; have ht := t.isLt; have hh := h.isLt
  have hidx : idx_main_v11 (ix3 b t h) = ix2 (flat b t) h := by
    funext a; refine Fin.ext ?_
    match a with
    | ⟨0, _⟩ => show ((b.val * 4096 + t.val) * 1024 + h.val) / 1024 = b.val * 4096 + t.val; omega
    | ⟨1, _⟩ => show ((b.val * 4096 + t.val) * 1024 + h.val) % 1024 = h.val; omega
  rw [hidx]
  unfold val_main_v10
  have hsc := scatterAdd_cols_host (P := 32768) (C := 1024) (n := 32768) (w := 32) (φ := .f32)
      Gen.scatter_S32768x1024_S32768x1_S32768x1024_1_0_0_1_wf
      (val_main_v8 (F := Ideal)) (val_main_v9 (F := Ideal) x1) (val_main_v6 (F := Ideal) x0) (flat b t) h
  refine hsc.trans ?_
  have h8 : val_main_v8 (F := Ideal) (ix2 (flat b t) h) = 0 := by
    rw [val_main_v8_apply, val_main_cst_apply]; exact Ideal.ofBits_zero_f32
  rw [h8, zero_add]
  unfold pooledAt
  rw [← Finset.sum_filter]
  refine Finset.sum_nbij' (fun k => colOf k) (fun w => flat b w) ?_ ?_ ?_ ?_ ?_
  · intro k hk
    have hk' := (seg_eq_iff x1 hr b t k).mp (Finset.mem_filter.mp hk).2
    exact Finset.mem_filter.mpr ⟨Finset.mem_univ _, hk'.2⟩
  · intro w hw
    have hw' := (Finset.mem_filter.mp hw).2
    have hlt := w.isLt
    have h1 : rowOf (flat b w) = b := Fin.ext (by show (b.val * 4096 + w.val) / 4096 = b.val; omega)
    have h2 : colOf (flat b w) = w := Fin.ext (by show (b.val * 4096 + w.val) % 4096 = w.val; omega)
    refine Finset.mem_filter.mpr ⟨Finset.mem_univ _, (seg_eq_iff x1 hr b t (flat b w)).mpr ⟨h1, ?_⟩⟩
    rw [h2]; exact hw'
  · intro k hk
    have hk' := ((seg_eq_iff x1 hr b t k).mp (Finset.mem_filter.mp hk).2).1
    have hq : k.val / 4096 = b.val := congrArg Fin.val hk'
    refine Fin.ext ?_
    show b.val * 4096 + k.val % 4096 = k.val
    omega
  · intro w _
    have hlt := w.isLt
    exact Fin.ext (by show (b.val * 4096 + w.val) % 4096 = w.val; omega)
  · intro k hk
    have hk' := ((seg_eq_iff x1 hr b t k).mp (Finset.mem_filter.mp hk).2).1
    rw [upd_apply, hk']

end Cert.TokenPool.RefSide
end
-- ==== Proof.PreRange.lean ====
/-
  The precondition, read back for the integer table.

  The printed precondition is the conjunction of two "all" reductions: one over the finiteness test of the float
  array, one over the test `0 ≤ ids[b, w] ∧ ids[b, w] < 4096` (both comparisons signed) of the integer table. When the
  conjunction is 1, the second reduction is 1, so the test is 1 at every position `(b, w)`. A 32-bit word that is
  nonnegative read signed has its top bit clear, so it reads the same signed and unsigned; being below 4096 read
  signed, it is below 4096 read unsigned. Hence every word of the table is a token index in `[0, 4096)`.
-/
import Idealize.ShloMosaic.Lib.ReduceAll
import Idealize.ShloMosaic.Lib.ValueIdx
import proofs.«420540_j43276090474610_2_alg».proof.Proof.Spec
import proofs.«420540_j43276090474610_2_alg».proof.Pre_finite_inputs

namespace Cert.TokenPool.PreRange

open Idealize.ShloMosaic Idealize.ShloMosaic.ValueIdx

/-- A 32-bit word that tests `0 ≤ w` and `w < 4096`, both signed, is below 4096 read unsigned: the first test says
    the top bit is clear, so the signed and the unsigned readings agree, and the second bounds that common value. -/
theorem toNat_lt_of_signed_tests (w : BitVec 32) (h0 : IntOp.cmpi .sge w 0#32 = 1#1)
    (h1 : IntOp.cmpi .slt w 4096#32 = 1#1) : w.toNat < 4096 := by
  rw [IntOp.cmpi_sge, show (0#32 : BitVec 32).toInt = 0 from by decide, BitVec.toInt_pos_iff] at h0
  rw [IntOp.cmpi_slt, show (4096#32 : BitVec 32).toInt = 4096 from by decide, BitVec.toInt_eq_toNat_of_lt h0] at h1
  exact_mod_cast h1

/-- The scalar shape has one index. -/
instance : Subsingleton Cert.Pre_finite_inputs.S_.Idx := ⟨fun a b => funext fun d => d.elim0⟩

/-- Under the printed precondition every word of the integer table lies in `[0, 4096)`. -/
theorem ids_in_range [hP : Cert.Pre_finite_inputs.Facts] {F : FTy → Type} [FloatOps F]
    (x : FVec F ⟨3, ![8, 4096, 1024]⟩ .f32) (ids : IVec ⟨2, ![8, 4096]⟩ 32)
    (h : Cert.Pre_finite_inputs.fn (F := F) x ids = fun _ => 1#1) : Cert.TokenPool.InRange ids := by
  intro b w
  -- the one element of the result is 1
  have h0 := congrFun h ix0
  dsimp only [Cert.Pre_finite_inputs.fn] at h0
  -- the conjunction's second half: the all-reduction over the table's range test is 1
  have h1 := (IntOp.andi_eq_one.1 h0).2
  -- so the range test is 1 at the position (b, w)
  have h2 := Host.reduce_andi_all _ _ _ _ _ h1 (ix2 b w)
  -- and the test there is the conjunction of the two signed comparisons of the word with 0 and 4096
  have h3 := IntOp.andi_eq_one.1 h2
  exact toNat_lt_of_signed_tests (ids (ix2 b w)) h3.1 h3.2

end Cert.TokenPool.PreRange
-- ==== Proof.lean ====
/-
  Token pooling: the Pallas kernel against `segment_sum`.

  Both programs take `x` : f32[8, 4096, 1024] and a table `ids` : i32[8, 4096] of token indices, and return, for every
  batch row `b`, token `t` and hidden coordinate `h`, the sum of `x[b, w, h]` over the wordpiece positions `w` with
  `ids[b, w] = t` (Proof/Spec.lean, `pooled`).

  * The kernel walks the grid (b, T, l): for output tile `T` it accumulates, over the eight wordpiece tiles `l`, the
    product of the 0/1 mask `[512 T + r = ids[b, 512 l + j]]` with the tile's block of `x`, and writes the accumulator
    back after the last tile. Over the extended reals a 0/1 weight times a value is the value or zero and a sum may be
    regrouped freely, so the accumulated block is the pooled array's block (Proof/Pieces.lean, PayloadAt.lean,
    Blocks.lean, Invariant.lean, Final.lean; the split of the 4096 positions into eight tiles is Tiles.lean and
    TilesSum.lean).
  * The reference offsets each word by `4096 b`, flattens, and scatter-adds the rows of `x` into a zero array of 32768
    rows. When every word lies in [0, 4096) — the precondition's second conjunct (Proof/PreRange.lean) — the offset word
    of position (b', w) equals `4096 b + t` exactly when `b' = b` and `ids[b, w] = t`, so row `4096 b + t` of the scatter's
    result is again the pooled value (Proof/RefSide.lean, over the general segment-sum reads of LibSegmentSum.lean and
    LibSegmentSumHost.lean).

  Neither side needs the finiteness of `x`: the equality holds entry by entry for all extended reals.
-/
import proofs.«420540_j43276090474610_2_alg».proof.Defs
import proofs.«420540_j43276090474610_2_alg».proof.Proof.Gen.Kernel
import proofs.«420540_j43276090474610_2_alg».proof.Proof.Gen.Kernel.Skeleton
import proofs.«420540_j43276090474610_2_alg».proof.Proof.Gen.Kernel.Launch
import proofs.«420540_j43276090474610_2_alg».proof.Proof.Gen.Kernel.Points
import proofs.«420540_j43276090474610_2_alg».proof.Proof.Gen.Kernel.Frame
import proofs.«420540_j43276090474610_2_alg».proof.Proof.Gen.KernelIdeal
import proofs.«420540_j43276090474610_2_alg».proof.Proof.Gen.KernelIdeal.Skeleton
import proofs.«420540_j43276090474610_2_alg».proof.Proof.Gen.KernelIdeal.Launch
import proofs.«420540_j43276090474610_2_alg».proof.Proof.Gen.KernelIdeal.Points
import proofs.«420540_j43276090474610_2_alg».proof.Proof.Gen.KernelIdeal.Frame
import proofs.«420540_j43276090474610_2_alg».proof.Proof.Gen.ReferenceIdeal
import proofs.«420540_j43276090474610_2_alg».proof.Proof.Gen.Pre_finite_inputs
import proofs.«420540_j43276090474610_2_alg».proof.Proof.Gen.KernelIdeal.Value
import proofs.«420540_j43276090474610_2_alg».proof.Proof.Gen.ReferenceIdeal.Run
import proofs.«420540_j43276090474610_2_alg».proof.Proof.Gen.ReferenceIdeal.Read
import proofs.«420540_j43276090474610_2_alg».proof.Proof.Final
import proofs.«420540_j43276090474610_2_alg».proof.Proof.RefSide
import proofs.«420540_j43276090474610_2_alg».proof.Proof.PreRange
import Idealize.ShloMosaic.Adequacy
import Idealize.ShloMosaic.Init

noncomputable section

namespace Cert.Proof

open Idealize.ShloMosaic Idealize.SL.Sem

/-- The word-level kernel runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pooled array of the (agreeing) arguments: the kernel by its run, the reference because
    its scatter-add of offset words is the pooled array once every word is a token index of its own row. -/
theorem algebraic : Cert.algebraic_KernelIdeal_ReferenceIdeal := by
  intro m ρ m' ρ' hpre hagree
  refine ⟨fun c => Cert.TokenPool.pooled (Cert.TokenPool.Invariant.xArr m c) (Cert.TokenPool.Invariant.idArr m c),
    Cert.TokenPool.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  exact Cert.TokenPool.RefSide.reference_eq _ _ (Cert.TokenPool.PreRange.ids_in_range (F := Ideal) _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
